-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x1024 : Shape := ⟨2, ![2048, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S2x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  inb_S1x1024_S1x1024_0_0 : ∀ a, (![0, 0] : Fin 2 → Nat) a + S1x1024.size a ≤ S1x1024.size a
  h_S1x1024 : 0 < S1x1024.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S4096x2048_S2048_d0 : S4096x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)

variable [Facts₀]

class Facts : Prop extends Facts₀ where

variable [Facts]
-- ==== Proof.MeanSpec.lean ====
/-
  The mean over the rows of a 4096 × 2048 array of extended reals, column by column, and how it splits
  over the two halves of the rows. No program is read here: only the index algebra and the one law
  between "the whole column's sum divided by 4096" and "the two half sums, added, times 2⁻¹²".
-/
import Idealize.ShloMosaic.PureOps.Ideal
import Idealize.ShloMosaic.PureOps.Ideal.Laws
import Idealize.ShloMosaic.Lib.ValueIdx
import Idealize.ShloMosaic.Lib.Layout
import Mathlib.Algebra.BigOperators.Fin

noncomputable section

open scoped BigOperators

namespace Cert.Proof.MeanSpec

open Idealize.ShloMosaic Idealize.ShloMosaic.ValueIdx

/-- The whole array: 4096 rows, 2048 columns. -/
abbrev Whole : Type := (⟨2, ![4096, 2048]⟩ : Shape).Idx → EReal

/-- Row `r` of the row half `b`: row `b · 2048 + r` of the whole array. -/
def rowAt (b : Fin 2) (r : Fin 2048) : Fin 4096 := ⟨b.val * 2048 + r.val, by have := b.isLt; have := r.isLt; omega⟩

/-- Column `l` of the column half `b`: column `b · 1024 + l` of the whole array. -/
def colAt (b : Fin 2) (l : Fin 1024) : Fin 2048 := ⟨b.val * 1024 + l.val, by have := b.isLt; have := l.isLt; omega⟩

@[simp] theorem rowAt_val (b : Fin 2) (r : Fin 2048) : (rowAt b r).val = b.val * 2048 + r.val := rfl
@[simp] theorem colAt_val (b : Fin 2) (l : Fin 1024) : (colAt b l).val = b.val * 1024 + l.val := rfl

/-- The sum of column `col` over all 4096 rows. -/
def colSum (X : Whole) (col : Fin 2048) : EReal := ∑ k : Fin 4096, X (ix2 k col)

/-- The sum of column `col` over the 2048 rows of the row half `b`. -/
def halfSum (X : Whole) (b : Fin 2) (col : Fin 2048) : EReal := ∑ r : Fin 2048, X (ix2 (rowAt b r) col)

/-- A column's sum is the sum over the upper half of the rows plus the sum over the lower half. -/
theorem colSum_split (X : Whole) (col : Fin 2048) : colSum X col = halfSum X 0 col + halfSum X 1 col := by
  unfold colSum halfSum
  have h := Fin.sum_univ_add (a := 2048) (b := 2048) fun k : Fin (2048 + 2048) => X (ix2 (k : Fin 4096) col)
  refine Eq.trans ?_ (h.trans ?_)
  · rfl
  refine congrArg₂ (· + ·) ?_ ?_
  · refine Finset.sum_congr rfl fun r _ => congrArg (fun k => X (ix2 k col)) (Fin.ext ?_)
    show r.val = 0 * 2048 + r.val
    omega
  · refine Finset.sum_congr rfl fun r _ => congrArg (fun k => X (ix2 k col)) (Fin.ext ?_)
    show 2048 + r.val = 1 * 2048 + r.val
    omega

/-- The word `0x45800000` denotes the real 4096. -/
theorem ofBits_4096 : Ideal.ofBits .f32 0x45800000#32 = ((4096 : ℝ) : EReal) := by
  simp [Ideal.ofBits, Ideal.ieee, -EReal.coe_mul]; norm_num

/-- The word `0x39800000` denotes the real 1/4096. -/
theorem ofBits_inv4096 : Ideal.ofBits .f32 0x39800000#32 = ((1 / 4096 : ℝ) : EReal) := by
  simp [Ideal.ofBits, Ideal.ieee, -EReal.coe_mul]; norm_num

/-- Zero plus a sum, divided by 4096, is the sum times 2⁻¹², on every extended real. -/
theorem div_4096 (s : EReal) :
    Ideal.div (Ideal.ofBits .f32 0x00000000#32 + s) (Ideal.ofBits .f32 0x45800000#32)
      = s * Ideal.ofBits .f32 0x39800000#32 := by
  rw [Ideal.ofBits_zero_f32, zero_add, ofBits_4096, ofBits_inv4096, Ideal.div_coe (by norm_num : (4096 : ℝ) ≠ 0)]

/-- The mean of a column over all rows is the two half sums, in either order, added and scaled by 2⁻¹². -/
theorem mean_halves (X : Whole) (b b' : Fin 2) (hb : b ≠ b') (col : Fin 2048) :
    Ideal.div (Ideal.ofBits .f32 0x00000000#32 + colSum X col) (Ideal.ofBits .f32 0x45800000#32)
      = (halfSum X b col + halfSum X b' col) * Ideal.ofBits .f32 0x39800000#32 := by
  rw [div_4096, colSum_split]
  have : halfSum X b col + halfSum X b' col = halfSum X 0 col + halfSum X 1 col := by
    fin_cases b <;> fin_cases b'
    · exact absurd rfl hb
    · rfl
    · exact add_comm (G := EReal) _ _
    · exact absurd rfl hb
  rw [this]

/-! ## The 2 × 2 mesh's blocks, by coordinates -/

/-- Device `c`'s block of the argument: row half `c / 2`, column half `c % 2`. -/
theorem meshBlock_arg_val (c : Fin 4) :
    ((Layout.meshBlock [2, 2] ![[0], [1]] c) 0).val = c.val / 2 ∧ ((Layout.meshBlock [2, 2] ![[0], [1]] c) 1).val = c.val % 2 := by
  revert c; decide

/-- Device `c`'s block of the result: the one row, column half `c % 2`. -/
theorem meshBlock_res_val (c : Fin 4) :
    ((Layout.meshBlock [2, 2] ![[], [1]] c) 0).val = 0 ∧ ((Layout.meshBlock [2, 2] ![[], [1]] c) 1).val = c.val % 2 := by
  revert c; decide

/-- The row half of device `c`. -/
def rowHalf (c : Fin 4) : Fin 2 := ⟨c.val / 2, by have := c.isLt; omega⟩
/-- The column half of device `c`. -/
def colHalf (c : Fin 4) : Fin 2 := ⟨c.val % 2, by omega⟩

/-- Device `c`'s block of the argument read at (r, l) is the whole array at (row r of c's row half, column l of c's column half). -/
theorem argBlock_apply (X : Whole) (c : Fin 4) (r : Fin 2048) (l : Fin 1024) :
    (Layout.blockN ⟨2, ![2048, 1024]⟩ ⟨2, ![4096, 2048]⟩ (Layout.meshBlock [2, 2] ![[0], [1]] c) X) (ix2 r l)
      = X (ix2 (rowAt (rowHalf c) r) (colAt (colHalf c) l)) := by
  rw [Layout.blockN_apply]
  refine congrArg X (funext fun b => Fin.ext ?_)
  rw [Layout.TilesN.idx_val]
  match b with
  | ⟨0, _⟩ => exact congrArg (· * 2048 + r.val) (meshBlock_arg_val c).1
  | ⟨1, _⟩ => exact congrArg (· * 1024 + l.val) (meshBlock_arg_val c).2

/-- Device `c`'s block of a one-row result read at (a, l) is the whole row at (a, column l of c's column half). -/
theorem resBlock_apply (Y : (⟨2, ![1, 2048]⟩ : Shape).Idx → EReal) (c : Fin 4) (a : Fin 1) (l : Fin 1024) :
    (Layout.blockN ⟨2, ![1, 1024]⟩ ⟨2, ![1, 2048]⟩ (Layout.meshBlock [2, 2] ![[], [1]] c) Y) (ix2 a l)
      = Y (ix2 a (colAt (colHalf c) l)) := by
  rw [Layout.blockN_apply]
  refine congrArg Y (funext fun b => Fin.ext ?_)
  rw [Layout.TilesN.idx_val]
  match b with
  | ⟨0, _⟩ =>
    have h := congrArg (· * 1 + a.val) (meshBlock_res_val c).1
    refine h.trans ?_
    show 0 * 1 + a.val = a.val
    omega
  | ⟨1, _⟩ => exact congrArg (· * 1024 + l.val) (meshBlock_res_val c).2

end Cert.Proof.MeanSpec

end
-- ==== Proof.RefSide.lean ====
/-
  The reference's side of the value: its result as a function of its argument array at the ideal instance
  (the sum of each column over all 4096 rows, divided by 4096), its run with that result named, its frame,
  and the result read at an index.
-/
import proofs.«900958_g7700000000000959_dist_mean_ax0_xy_m2048_n1024_v7x_xy2x2_bf16_1_alg».proof.Defs
import proofs.«900958_g7700000000000959_dist_mean_ax0_xy_m2048_n1024_v7x_xy2x2_bf16_1_alg».proof.Proof.Gen.ReferenceIdeal
import proofs.«900958_g7700000000000959_dist_mean_ax0_xy_m2048_n1024_v7x_xy2x2_bf16_1_alg».proof.Proof.Gen.ReferenceIdeal.Run
import proofs.«900958_g7700000000000959_dist_mean_ax0_xy_m2048_n1024_v7x_xy2x2_bf16_1_alg».proof.Proof.Gen.ReferenceIdeal.Read
import proofs.«900958_g7700000000000959_dist_mean_ax0_xy_m2048_n1024_v7x_xy2x2_bf16_1_alg».proof.Proof.Gen.Pre_finite_inputs_ReferenceIdeal
import proofs.«900958_g7700000000000959_dist_mean_ax0_xy_m2048_n1024_v7x_xy2x2_bf16_1_alg».proof.Proof.MeanSpec

noncomputable section

open scoped BigOperators

namespace Cert.Proof.RefSide

open Idealize.ShloMosaic Idealize.SL.Sem Idealize.ShloMosaic.ValueIdx

/-- The reference's result, as a function of its argument array: the last stage of its operations. -/
def refVal (X : (⟨Cert.ReferenceIdeal.S4096x2048, .f32⟩ : BufTy).Contents (Elt Ideal)) :
    (⟨Cert.ReferenceIdeal.S1x2048, .f32⟩ : BufTy).Contents (Elt Ideal) :=
  Cert.ReferenceIdeal.Read.val_main_v3 (F := Ideal) X

/-- Every weakly fair execution of the reference ends with its result buffer at `refVal` of the argument and the
    argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v3)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- The reference runs to the end, faults nowhere and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's result at (a, col): zero plus the sum of column `col` over all rows, divided by 4096. -/
theorem refVal_apply (X : (⟨Cert.ReferenceIdeal.S4096x2048, .f32⟩ : BufTy).Contents (Elt Ideal)) (a : Fin 1) (col : Fin 2048) :
    refVal X (ix2 a col)
      = Ideal.div (Ideal.ofBits .f32 0x00000000#32 + MeanSpec.colSum X col) (Ideal.ofBits .f32 0x45800000#32) := by
  unfold refVal
  rw [Cert.ReferenceIdeal.Read.val_main_v3_apply, Cert.ReferenceIdeal.Read.val_main_v1_apply,
    Cert.ReferenceIdeal.Read.val_main_v0_apply, Cert.ReferenceIdeal.Read.val_main_cst_apply,
    Cert.ReferenceIdeal.Read.val_main_v2_apply, Cert.ReferenceIdeal.Read.val_main_cst_0_apply]
  simp only [Ideal.hostDivf_def, Ideal.ofBits_def]
  unfold MeanSpec.colSum
  refine congrArg (fun s => Ideal.div (Ideal.ofBits .f32 0x00000000#32 + s) (Ideal.ofBits .f32 0x45800000#32))
    (Finset.sum_congr rfl fun k _ => congrArg X (funext fun b => Fin.ext ?_))
  match b with
  | ⟨0, _⟩ => rfl
  | ⟨1, _⟩ => rfl

/-- info: 'Cert.Proof.RefSide.ref_run' depends on axioms: [propext, Classical.choice, Quot.sound] -/
#guard_msgs in #print axioms ref_run
/-- info: 'Cert.Proof.RefSide.refVal_apply' depends on axioms: [propext, Classical.choice, Quot.sound] -/
#guard_msgs in #print axioms refVal_apply

end Cert.Proof.RefSide

end
-- ==== Proof.Peer.lean ====
/-
  The 2 × 2 mesh's partner map: device `c` sits at (c / 2, c % 2); its partner is the device in the same
  column of the other row, (1 - c / 2, c % 2). The map is an involution without fixed points.
-/
import Idealize.ShloMosaic.Signature.Static

namespace Cert.Proof.Mesh

open Idealize.ShloMosaic

/-- The device in the same column of the other row. -/
def peer (c : Dev 4) : Dev 4 := ⟨((c.val % 2) + 2) - 2 * (c.val / 2), by have := c.isLt; omega⟩

theorem peer_peer (c : Dev 4) : peer (peer c) = c := by revert c; decide
theorem peer_ne (c : Dev 4) : peer c ≠ c := by revert c; decide
theorem peer_val (c : Dev 4) : (peer c).val = ((c.val % 2) + 2) - 2 * (c.val / 2) := rfl

/-- The partner map as a permutation of the mesh. -/
def peerEquiv : Dev 4 ≃ Dev 4 := ⟨peer, peer, peer_peer, peer_peer⟩

end Cert.Proof.Mesh
-- ==== Proof.Pay.lean ====
/-
  The kernel's two payloads read at an index, at the ideal instance: the column sums of a 2048 × 1024 block,
  and the sum of two such rows of sums scaled by 2⁻¹².
-/
import proofs.«900958_g7700000000000959_dist_mean_ax0_xy_m2048_n1024_v7x_xy2x2_bf16_1_alg».proof.Proof.Gen.KernelIdeal
import proofs.«900958_g7700000000000959_dist_mean_ax0_xy_m2048_n1024_v7x_xy2x2_bf16_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Proof.Pay

open Idealize.ShloMosaic Idealize.ShloMosaic.ValueIdx Cert.KernelIdeal

/-- The column sums of a block: at (a, b, l), the sum over the block's 2048 rows of column `l`. -/
theorem pay2_apply (v : FVec Ideal S2048x1024 .f32) (a b : Fin 1) (l : Fin 1024) :
    Cert.KernelIdeal.Gen.k0_pay2 (F := Ideal) v (ix3 a b l) = ∑ r : Fin 2048, v (ix2 r l) := by
  unfold Cert.KernelIdeal.Gen.k0_pay2
  refine (shapeCast_addUnit_apply ![1, 1024] _ _ _).trans ?_
  refine (shapeCast_addUnit_apply ![1024] _ _ _).trans ?_
  refine (Ideal.multiReduction_add_single _ _ _ _ _ _).trans ?_
  rw [shapeCast_self]
  refine Finset.sum_congr rfl fun r _ => congrArg v (funext fun d => Fin.ext ?_)
  match d with
  | ⟨0, _⟩ => rfl
  | ⟨1, _⟩ => rfl

/-- The stored row: at (a, l), the two rows of sums added at (0, a, l), times the word `0x39800000`'s value. -/
theorem pay1_apply (x y : FVec Ideal S1x1x1024 .f32) (a : Fin 1) (l : Fin 1024) :
    Cert.KernelIdeal.Gen.k0_pay1 (F := Ideal) x y (ix2 a l)
      = (x (ix3 0 a l) + y (ix3 0 a l)) * Ideal.ofBits .f32 0x39800000#32 := by
  unfold Cert.KernelIdeal.Gen.k0_pay1
  show (shapeCast S1x1024 x Gen.shapeCasts_S1x1x1024_S1x1024 (ix2 a l)
      + shapeCast S1x1024 y Gen.shapeCasts_S1x1x1024_S1x1024 (ix2 a l)) * Ideal.ofBits .f32 0x39800000#32 = _
  have e : (Fin.cons ⟨0, Nat.one_pos⟩ (ix2 a l) : S1x1x1024.Idx) = ix3 0 a l := by
    funext d
    match d with
    | ⟨0, _⟩ => rfl
    | ⟨1, _⟩ => rfl
    | ⟨2, _⟩ => rfl
  rw [shapeCast_dropUnit_apply ![1, 1024] x, shapeCast_dropUnit_apply ![1, 1024] y, e]

/-- info: 'Cert.Proof.Pay.pay2_apply' depends on axioms: [propext, Classical.choice, Quot.sound] -/
#guard_msgs in #print axioms pay2_apply
/-- info: 'Cert.Proof.Pay.pay1_apply' depends on axioms: [propext, Classical.choice, Quot.sound] -/
#guard_msgs in #print axioms pay1_apply

end Cert.Proof.Pay

end
-- ==== Proof.Join.lean ====
/-
  The join of the two sides: device `c`'s block of the reference's result — the mean of each of its 1024 columns
  over all 4096 rows — is what the kernel stores there: the column sums of its own block plus those of its
  partner's block (the same columns, the other half of the rows), times 2⁻¹².
-/
import proofs.«900958_g7700000000000959_dist_mean_ax0_xy_m2048_n1024_v7x_xy2x2_bf16_1_alg».proof.Proof.Peer
import proofs.«900958_g7700000000000959_dist_mean_ax0_xy_m2048_n1024_v7x_xy2x2_bf16_1_alg».proof.Proof.MeanSpec
import proofs.«900958_g7700000000000959_dist_mean_ax0_xy_m2048_n1024_v7x_xy2x2_bf16_1_alg».proof.Proof.RefSide
import proofs.«900958_g7700000000000959_dist_mean_ax0_xy_m2048_n1024_v7x_xy2x2_bf16_1_alg».proof.Proof.Pay

noncomputable section

open scoped BigOperators

namespace Cert.Proof.Join

open Idealize.ShloMosaic Idealize.ShloMosaic.ValueIdx Cert.Proof.Mesh

/-- The partner sits in the same column half … -/
theorem colHalf_peer (c : Fin 4) : MeanSpec.colHalf (peer c) = MeanSpec.colHalf c := by revert c; decide

/-- … and in the other row half. -/
theorem rowHalf_peer_ne (c : Fin 4) : MeanSpec.rowHalf c ≠ MeanSpec.rowHalf (peer c) := by revert c; decide

/-- Device `c`'s block of the reference's result is the kernel's stored row of its own block's and its partner's
    block's column sums. -/
theorem join (X : (⟨Cert.ReferenceIdeal.S4096x2048, .f32⟩ : BufTy).Contents (Elt Ideal)) (c : Dev 4) :
    Layout.blockN ⟨2, ![1, 1024]⟩ ⟨2, ![1, 2048]⟩ (Layout.meshBlock [2, 2] ![[], [1]] c) (RefSide.refVal X)
      = Cert.KernelIdeal.Gen.k0_pay1 (F := Ideal)
          (Cert.KernelIdeal.Gen.k0_pay2 (F := Ideal) (Layout.blockN ⟨2, ![2048, 1024]⟩ ⟨2, ![4096, 2048]⟩ (Layout.meshBlock [2, 2] ![[0], [1]] c) X))
          (Cert.KernelIdeal.Gen.k0_pay2 (F := Ideal) (Layout.blockN ⟨2, ![2048, 1024]⟩ ⟨2, ![4096, 2048]⟩ (Layout.meshBlock [2, 2] ![[0], [1]] (peer c)) X)) := by
  funext i
  obtain ⟨a, l, rfl⟩ : ∃ (a : Fin 1) (l : Fin 1024), i = ix2 a l := ⟨i 0, i 1, eq_ix2 i⟩
  rw [MeanSpec.resBlock_apply, RefSide.refVal_apply, Pay.pay1_apply, Pay.pay2_apply, Pay.pay2_apply]
  simp only [MeanSpec.argBlock_apply]
  rw [colHalf_peer]
  exact MeanSpec.mean_halves X _ _ (rowHalf_peer_ne c) _

/-- info: 'Cert.Proof.Join.join' depends on axioms: [propext, Classical.choice, Quot.sound] -/
#guard_msgs in #print axioms join

end Cert.Proof.Join

end
-- ==== Proof.KernelIdeal.Protocol.lean ====
/-
  Four devices on a 2 × 2 mesh; each holds one block of the input. A device and its partner (same column, other row)
  shake hands on the barrier semaphore — each signals the other's once and waits for one unit of its own —, each then
  writes the column sums of its block into slot 0 of its two-slot scratch buffer, copies that slot into slot 1 of its
  partner's scratch buffer, waits for its own copy to have left (send cell) and for its partner's to have landed
  (receive cell), and stores (slot 0 + slot 1) · 2⁻¹².

  Per cell, one round (round 0) with one duty:
  * the barrier cell of device c: one unit, paid by its partner's signal; with it come the partner's slot 1 (at any
    contents) and the fact that the partner's receive cell is at round 0 — what c's copy into that slot needs;
  * the send cell of c: the copy's credit, paid by c's own copy once slot 0 has been read; slot 0 comes back, still
    holding c's column sums;
  * the receive cell of c: the copy's credit, paid by the partner's copy once it has landed; slot 1 comes with it,
    holding the partner's column sums.
  A device owes, at launch, its partner's barrier cell one unit and its partner's receive cell the copy's credit.
  Levels: barrier cells at 1, receive cells at 2, everything else at 0; a device waits on its barrier cell owing only a
  receive credit, and on its send and receive cells owing nothing.
-/
import proofs.«900958_g7700000000000959_dist_mean_ax0_xy_m2048_n1024_v7x_xy2x2_bf16_1_alg».proof.Proof.Gen.KernelIdeal
import proofs.«900958_g7700000000000959_dist_mean_ax0_xy_m2048_n1024_v7x_xy2x2_bf16_1_alg».proof.Proof.Gen.KernelIdeal.Skeleton
import proofs.«900958_g7700000000000959_dist_mean_ax0_xy_m2048_n1024_v7x_xy2x2_bf16_1_alg».proof.Proof.Gen.KernelIdeal.Launch
import proofs.«900958_g7700000000000959_dist_mean_ax0_xy_m2048_n1024_v7x_xy2x2_bf16_1_alg».proof.Proof.Gen.KernelIdeal.Points
import proofs.«900958_g7700000000000959_dist_mean_ax0_xy_m2048_n1024_v7x_xy2x2_bf16_1_alg».proof.Proof.Peer
import Idealize.ShloMosaic.Lib.Pipeline.Launch
import Idealize.ShloMosaic.Lib.Pipeline.Kit
import Idealize.ShloMosaic.Lib.Tactic

noncomputable section

namespace Cert.KernelIdeal.Run

open Cert.KernelIdeal Cert.KernelIdeal.Gen
open Cert.Proof.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- Both of the kernel's device-id chains name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-! ## The memrefs, the two slots, the cells -/

abbrev xM : Memref sig .tc .vmem S2048x1024 .f32 := Memref.whole cc0_stg0_0
abbrev oM : Memref sig .tc .vmem S1x1024 .f32 := Memref.whole cc0_stg1_0
abbrev scrM : Memref sig .tc .vmem S2x1x1024 .f32 := Memref.whole cc0_scratch0

/-- Row 0 and row 1 of the scratch buffer, as rectangles of it. -/
abbrev R0 : Rect S2x1x1024 := Rect.unit (s := S2x1x1024) ![0, 0, 0] S1x1x1024.size inb_S2x1x1024_S1x1x1024_0_0_0
abbrev R1 : Rect S2x1x1024 := Rect.unit (s := S2x1x1024) ![1, 0, 0] S1x1x1024.size inb_S2x1x1024_S1x1x1024_1_0_0

/-- The two rows as the copy sees them: sliced out and squeezed to 1 × 1024. -/
abbrev slot0 : Memref sig .tc .vmem S1x1024 .f32 := (scrM.slice R0 (fun _ => rfl)).squeeze S1x1024 squeezes_S1x1x1024_S1x1024
abbrev slot1 : Memref sig .tc .vmem S1x1024 .f32 := (scrM.slice R1 (fun _ => rfl)).squeeze S1x1024 squeezes_S1x1x1024_S1x1024

/-- The two rows as a load or store through the whole buffer sees them. -/
abbrev A0 : View sig .tc .vmem S1x1x1024 .f32 := scrM.access R0
abbrev A1 : View sig .tc .vmem S1x1x1024 .f32 := scrM.access R1

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The copy's credit. -/
abbrev N : ℕ := (slot1 : Memref sig .tc .vmem S1x1024 .f32).view.dmaCredit
theorem N_pos : 0 < N := View.dmaCredit_pos _ (by decide)

/-! ## Contents -/

/-- Device c's block of the input, as its staging buffer holds it. -/
def xstg (c : Dev nD) : (cc0_stg0_0 : Ref sig .tc).ty.Contents (Elt F) :=
  (win0_0.blk (0 : Fin 1)).view.read (Elt F) (m ((c : Thread nD τ).loc main_arg0))

/-- The column sums of device c's block. -/
def colv (c : Dev nD) : Vec F S1x1x1024 .f32 := k0_pay2 (xstg m c)

/-- The kernel's result on device c. -/
def outAt (c : Dev nD) : (cc0_stg1_0 : Ref sig .tc).ty.Contents (Elt F) := k0_pay1 (colv m c) (colv m (peer c))

abbrev ScrBuf (c : Dev nD) : Type := Buf (Elt F) ((scrM : Memref sig .tc .vmem S2x1x1024 .f32).view.loc (c : Thread nD τ))

def scrPts (c : Dev nD) (f : ScrBuf (F := F) c) : sProp 𝕄 :=
  (scrM : Memref sig .tc .vmem S2x1x1024 .f32).view.loc (c : Thread nD τ) ↦[(scrM : Memref sig .tc .vmem S2x1x1024 .f32).view.set]{fullShare} f
def slot0Pts (c : Dev nD) (f : ScrBuf (F := F) c) : sProp 𝕄 :=
  (slot0 : Memref sig .tc .vmem S1x1024 .f32).view.loc (c : Thread nD τ) ↦[(slot0 : Memref sig .tc .vmem S1x1024 .f32).view.set]{fullShare} f
def slot1Pts (c : Dev nD) (f : ScrBuf (F := F) c) : sProp 𝕄 :=
  (slot1 : Memref sig .tc .vmem S1x1024 .f32).view.loc (c : Thread nD τ) ↦[(slot1 : Memref sig .tc .vmem S1x1024 .f32).view.set]{fullShare} f

/-! ## The schedule -/

/-- With the partner's signal come the partner's slot 1 and that its receive cell is at round 0. -/
def barPay (c : Dev nD) : sProp 𝕄 := iprop((∃ f, slot1Pts (peer c) f) ∗ reached ER (recvCell (peer c)) 0)
/-- With the landing comes slot 1, read back through row 1 as the partner's column sums. -/
def recvPay (c : Dev nD) : sProp 𝕄 := iprop(∃ g, slot1Pts c g ∗ ⌜A1.read (Elt F) g = colv m (peer c)⌝)
/-- With the departure slot 0 comes back, still reading as the device's own column sums. -/
def sendPay (c : Dev nD) : sProp 𝕄 := iprop(∃ f, slot0Pts c f ∗ ⌜A0.read (Elt F) f = colv m c⌝)

abbrev IsMine (g : GSem nD τ sig) : Prop := g.1.2 = .tc ∧ (g.2 = .reg barS ∨ g.2 = .dma sendS.sem ∨ g.2 = .dma recvS.sem)

def sched : Rounds.Schedule (GSem nD τ sig) Unit 𝕄 where
  duties g r := if r = 0 ∧ IsMine g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay slot0Pts slot1Pts
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, rfl, .inl rfl⟩
theorem duties_send : (sched (F := F) m).duties (sendCell c) 0 = {()} := by dsimp only [sched]; exact if_pos ⟨rfl, rfl, .inr (.inl rfl)⟩
theorem duties_recv : (sched (F := F) m).duties (recvCell c) 0 = {()} := by dsimp only [sched]; exact if_pos ⟨rfl, rfl, .inr (.inr rfl)⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device c owes its partner's receive cell the copy's credit and its partner's barrier cell one unit; the signal
    comes first and peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above every barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Run

end
-- ==== Proof.KernelIdeal.Body.lean ====
/-
  One device's body, run once at a symbolic device c with partner p = peer c, from what the launch deals it to what
  the pipeline takes back: the result block holding (column sums of c's block + column sums of p's block) · 2⁻¹².
-/
import proofs.«900958_g7700000000000959_dist_mean_ax0_xy_m2048_n1024_v7x_xy2x2_bf16_1_alg».proof.Proof.KernelIdeal.Protocol

noncomputable section

namespace Cert.KernelIdeal.Run

open Cert.KernelIdeal Cert.KernelIdeal.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two slots as parts of the scratch buffer -/

omit [FloatOps F] in
theorem slot0_set : (slot0 : Memref sig .tc .vmem S1x1024 .f32).view.set = (R0 : Rect S2x1x1024).set := by
  show ((View.whole cc0_scratch0).slice R0 |>.reshape S1x1024 _).set = _
  rw [View.set_reshape, View.set_slice_whole]
omit [FloatOps F] in
theorem slot1_set : (slot1 : Memref sig .tc .vmem S1x1024 .f32).view.set = (R1 : Rect S2x1x1024).set := by
  show ((View.whole cc0_scratch0).slice R1 |>.reshape S1x1024 _).set = _
  rw [View.set_reshape, View.set_slice_whole]
omit [FloatOps F] in
theorem A0_set : (A0 : View sig .tc .vmem S1x1x1024 .f32).set = (R0 : Rect S2x1x1024).set := View.set_slice_whole _ _
omit [FloatOps F] in
theorem A1_set : (A1 : View sig .tc .vmem S1x1x1024 .f32).set = (R1 : Rect S2x1x1024).set := View.set_slice_whole _ _

omit [FloatOps F] in
theorem slots_disjoint : Disjoint (slot0 : Memref sig .tc .vmem S1x1024 .f32).view.set (slot1 : Memref sig .tc .vmem S1x1024 .f32).view.set := by
  rw [slot0_set, slot1_set]
  exact Rect.unit_disjoint (0 : Fin 3) (.inl (by decide))

omit [FloatOps F] in
theorem slots_union : (slot0 : Memref sig .tc .vmem S1x1024 .f32).view.set ∪ (slot1 : Memref sig .tc .vmem S1x1024 .f32).view.set
    = (scrM : Memref sig .tc .vmem S2x1x1024 .f32).view.set := by
  rw [slot0_set, slot1_set]
  show _ = (View.whole cc0_scratch0 : View sig .tc _ _ _).set
  rw [View.set_whole]
  ext i
  simp only [Finset.mem_union, Rect.mem_set_unit, Finset.mem_univ, iff_true]
  have h0 := (i 0).isLt; have h1 := (i 1).isLt; have h2 := (i 2).isLt
  by_cases h : (i 0).val = 0
  · left; intro a; fin_cases a
    · exact ⟨Nat.zero_le _, by show (i 0).val < 0 + 1; omega⟩
    · exact ⟨Nat.zero_le _, by show (i 1).val < 0 + 1; exact h1⟩
    · exact ⟨Nat.zero_le _, by show (i 2).val < 0 + 1024; exact h2⟩
  · right; intro a; fin_cases a
    · refine ⟨by show 1 ≤ (i 0).val; omega, by show (i 0).val < 1 + 1; exact h0⟩
    · exact ⟨Nat.zero_le _, by show (i 1).val < 0 + 1; exact h1⟩
    · exact ⟨Nat.zero_le _, by show (i 2).val < 0 + 1024; exact h2⟩

/-- The scratch buffer is its two slots. -/
theorem scr_split (c : Dev nD) (f : ScrBuf (F := F) c) : scrPts c f ⊣⊢ iprop(slot0Pts c f ∗ slot1Pts c f) := by
  unfold scrPts slot0Pts slot1Pts
  rw [← slots_union]
  exact pointsTo_union slots_disjoint

/-- Two slots at different contents are the scratch buffer at some contents. -/
theorem scr_join (c : Dev nD) (f g : ScrBuf (F := F) c) : iprop(slot0Pts c f ∗ slot1Pts c g) ⊢ iprop(∃ h, scrPts c h) := by
  unfold scrPts slot0Pts slot1Pts
  rw [← slots_union]
  iintro H
  iexists _
  iapply (pointsTo_join slots_disjoint) $$ H

/-! ## Reading the slots -/

omit [FloatOps F] in
/-- What lands in row 1 through the squeezed view, read back through the row, is what the squeezed view of row 0
    read at the source: the two squeezes cancel. -/
theorem landing_read (fs fd : (cc0_scratch0 : Ref sig .tc).ty.Contents (Elt F)) :
    (A1 : View sig .tc .vmem S1x1x1024 .f32).read (Elt F)
      ((slot1 : Memref sig .tc .vmem S1x1024 .f32).view.write (Elt F) fd ((slot0 : Memref sig .tc .vmem S1x1024 .f32).view.read (Elt F) fs) Finset.univ)
      = (A0 : View sig .tc .vmem S1x1x1024 .f32).read (Elt F) fs := by
  funext y
  have hn : S1x1024.numel = S1x1x1024.numel := by decide
  obtain ⟨x, rfl⟩ : ∃ x, (Shape.reshapeEquiv hn) x = y := ⟨(Shape.reshapeEquiv hn).symm y, Equiv.apply_symm_apply _ _⟩
  have e1 : (A1 : View sig .tc .vmem S1x1x1024 .f32).emb (Shape.reshapeEquiv hn x) = (slot1 : Memref sig .tc .vmem S1x1024 .f32).view.emb x := rfl
  have e0 : (A0 : View sig .tc .vmem S1x1x1024 .f32).emb (Shape.reshapeEquiv hn x) = (slot0 : Memref sig .tc .vmem S1x1024 .f32).view.emb x := rfl
  rw [View.read_apply, e1, View.write_emb_of_mem _ _ (Finset.mem_univ x), View.read_apply, View.read_apply, e0]
  rfl

/-! ## The proof data -/

omit [FloatOps F] in
theorem cfg0_N : cfg0.N = 1 := by decide
def t₀ : Fin cfg0.N := ⟨0, by rw [cfg0_N]; decide⟩
omit [FloatOps F] in
theorem fin_N (t : Fin cfg0.N) : t = t₀ := by
  obtain ⟨t, ht⟩ := t; have := cfg0_N; exact Fin.ext (by simp only [t₀]; omega)

/-- The cells' invariants device c's body opens: its own three, its partner's barrier cell (its signal) and its
    partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells;
    round 0 reached on the cells it pays and on its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, the credit for its barrier's unit and for its receive cell,
    and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the scratch buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rX : Rect S2048x1024 := Rect.unit (s := S2048x1024) ![0, 0] S2048x1024.size inb_S2048x1024_S2048x1024_0_0
abbrev rO : Rect S1x1024 := Rect.unit (s := S1x1024) ![0, 0] S1x1024.size inb_S1x1024_S1x1024_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S2048x1024 .f32).view.readAt (Elt F) rX.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
/-- The copy of slot 0 into the partner's slot 1, at the protocol's cells: the departure hands slot 0 back still reading
    as c's column sums; the landing hands the partner its slot 1 reading, through row 1, as c's column sums (the two
    squeezes cancel). The copy is addressed to n, which is the partner (substituted, not rewritten). -/
theorem wp_send_slot (c n : Dev nD) (hn : n = peer c)
    {hsc : (slot1 : Memref sig (Dev.tc n : Thread nD τ).2.kind .vmem S1x1024 .f32).view.ref.isScScratch = false}
    {hsrc : (slot0 : Memref sig .tc .vmem S1x1024 .f32).view.WordExact} {hdst : (slot1 : Memref sig .tc .vmem S1x1024 .f32).view.WordExact}
    {hsem : DmaTarget.Typed .vmem (.dma recvS.sem) (.remote (Dev.tc n : Thread nD τ) (slot1 : Memref sig .tc .vmem S1x1024 .f32) (.dma sendS.sem) hsc)}
    {α : Type} {Q : α → sProp 𝕄} {k : PUnit → Prog (TpuEff nD τ sig (Elt F) Λ₀ .tc) α}
    (fs : ScrBuf (F := F) c) (hfs : A0.read (Elt F) fs = colv m c) (fn : ScrBuf (F := F) (peer c)) (W : Waits sig Unit) :
    iprop(cellInv ER (sched m) (K (c, 1)) (sendCell c) ∗ cellInv ER (sched m) (K (peer c, 2)) (recvCell (peer c))
        ∗ slot0Pts c fs ∗ slot1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m) (c : Thread nD τ) none (κ₁ := K (c, 1)) (κ₂ := K (peer c, 2))
    (c' := (peer c : Thread nD τ)) (src := (slot0 : Memref sig .tc .vmem S1x1024 .f32)) (dst := (slot1 : Memref sig .tc .vmem S1x1024 .f32)) (q := fullShare)
    (r₁ := 0) (r₂ := 0) (d₁ := ()) (d₂ := ()) (fs := fs) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0Pts
      iintro H; iexists fs
      isplitl; · iexact H
      ipureintro; exact hfs)
    (by
      rw [payload_recv]; unfold recvPay slot1Pts
      iintro H; iexists _
      isplitl; · iexact H
      ipureintro; rw [landing_read, hfs, peer_peer])

omit [FloatOps F] in
theorem A0_sub : (A0 : View sig .tc .vmem S1x1x1024 .f32).set ⊆ (slot0 : Memref sig .tc .vmem S1x1024 .f32).view.set := (slot0_set.trans A0_set.symm).ge
omit [FloatOps F] in
theorem A1_sub : (A1 : View sig .tc .vmem S1x1x1024 .f32).set ⊆ (slot1 : Memref sig .tc .vmem S1x1024 .f32).view.set := (slot1_set.trans A1_set.symm).ge

set_option maxHeartbeats 1600000 in
/-- The body at device c, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hs := (scr_split c f0).1 $$ Hscr
  icases Hs with ⟨H0, H1⟩
  simp only [dev1_eq c, dev2_eq c]
  -- the signal to the partner's barrier cell: with it go this device's slot 1 and its receive cell's round
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP H1]
  · isplitr; · iexact HIbarP
    isplitl [HO]; · iexact HO
    isplitl [HtBP]; · iexact HtBP
    isplitl [H1]
    · rw [payload_bar]; unfold barPay; rw [peer_peer]
      isplitl [H1]; · iexists f0; iexact H1
      iexact HrV
    · iexact HrBP
  iintro HO
  -- the wait for one unit on its own barrier cell, owing only the partner's receive credit: the partner's slot 1 comes
  unfold O₁
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, H1P⟩, #HrVP'⟩
  -- the block is loaded, row 0 is loaded (not used) and overwritten with the block's column sums
  iapply (wp_load 𝒱₀ (c : Thread nD τ) none Set.univ (m := xM) (Finset.subset_univ _)) $$ Hx; iintro Hx
  rw [read_x]
  unfold slot0Pts
  iapply (wp_load_rect 𝒱₀ (c : Thread nD τ) none Set.univ (m := scrM) (r := R0) A0_sub) $$ H0; iintro H0
  iapply (wp_store 𝒱₀ (c : Thread nD τ) none Set.univ (m := scrM) (r := R0) (Mk := Finset.univ) (by rw [View.setOn_univ]; exact A0_sub)) $$ H0; iintro H0
  -- the copy into the partner's slot 1
  iapply (wp_send_slot m K c _ (dev2_eq c) ((A0 : View sig .tc .vmem S1x1x1024 .f32).write (Elt F) f0 (colv m c) Finset.univ)
      (View.read_write_univ _ _) fn (insert (SemLoc.reg barS, ()) W)) $$ [H0 H1P HO HtS HtVP]
  · isplitr; · iexact HIsnd
    isplitr; · iexact HIrcvP
    isplitl [H0]; · unfold slot0Pts colv; iexact H0
    isplitl [H1P]; · iexact H1P
    isplitl [HO]; · iexact HO
    isplitl [HtS]; · iexact HtS
    isplitr; · iexact HrS
    isplitl [HtVP]; · iexact HtVP
    iexact HrVP
  iintro ⟨HcS, HO⟩
  -- the wait on its send cell: slot 0 back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp0 := (Entails.of_eq (rest_send m c)) $$ Hpay
  unfold sendPay
  icases Hp0 with ⟨%fs', H0, %hfs'⟩
  -- the wait on its receive cell: slot 1 holding the partner's column sums
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp1 := (Entails.of_eq (rest_recv m c)) $$ Hpay
  unfold recvPay
  icases Hp1 with ⟨%g, H1, %hg⟩
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the two rows are loaded, the result block is loaded (not used) and stored
  unfold slot0Pts slot1Pts
  iapply (wp_load_rect 𝒱₀ (c : Thread nD τ) none Set.univ (m := scrM) (r := R0) A0_sub) $$ H0; iintro H0
  iapply (wp_load_rect 𝒱₀ (c : Thread nD τ) none Set.univ (m := scrM) (r := R1) A1_sub) $$ H1; iintro H1
  rw [hfs', hg]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [H0 H1 HzS HzV]
  · isplitl [H0 H1]
    · iapply (scr_join c fs' g)
      unfold slot0Pts slot1Pts
      isplitl [H0] <;> iassumption
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdeal.Run

end
-- ==== Proof.KernelIdeal.Launch.lean ====
/-
  The launch: every device's cells allocated under one update, the duty tokens dealt to the devices that pay them,
  the launch credit read off what the devices owe, and the run of @main on the four devices with each device's
  result array named.
-/
import proofs.«900958_g7700000000000959_dist_mean_ax0_xy_m2048_n1024_v7x_xy2x2_bf16_1_alg».proof.Proof.KernelIdeal.Body

noncomputable section

namespace Cert.KernelIdeal.Run

open Cert.KernelIdeal Cert.KernelIdeal.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ownSemFacts : Pipeline.OwnSemFacts cfg0.spec osem := by decide

theorem share_eq (c : Dev nD) (w : Fin cfg0.W) : (dats m 0 c).share w = fullShare := by unfold Dat.share; split <;> rfl

omit [FloatOps F] in
theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted. -/
abbrev tokOf (ck : Dev nD × Fin 3) : GSem nD τ sig × ℕ × Unit := (kcell ck, 0, ())
omit [FloatOps F] in
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a device's barrier token and receive token go to its partner, its send token
    stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — each pair of devices shaking hands on the barrier semaphore, then exchanging column sums —
    terminates, and every final state has each device's arrays at the named contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Run.run_main' depends on axioms: [propext, Classical.choice, Quot.sound] -/
#guard_msgs in #print axioms run_main

end Cert.KernelIdeal.Run

end
-- ==== Proof.KernelIdeal.Final.lean ====
/-
  What the arrays hold when the one point of the pipeline is over: the input array as launched (its one window is the
  whole array, never written back), and the result array at what the body stored (its one window is the whole array,
  written back once, unmasked).
-/
import proofs.«900958_g7700000000000959_dist_mean_ax0_xy_m2048_n1024_v7x_xy2x2_bf16_1_alg».proof.Proof.KernelIdeal.Body
import Idealize.ShloMosaic.Lib.Pipeline.Value

noncomputable section

namespace Cert.KernelIdeal.Run

open Cert.KernelIdeal Cert.KernelIdeal.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input window's block at the one point is the whole input array: reading it is the identity. -/
theorem xstg_eq (c : Dev nD) : xstg m c = m ((c : Thread nD τ).loc main_arg0) := by
  unfold xstg
  exact Memref.read_access_unit_zero (Elt F) main_arg0 (funext fun a => Nat.zero_mul _) _ _

/-- The input array is never written back: it ends as launched. -/
theorem final_in (c : Dev nD) : (dats m 0 c).arrAt (0 : Fin 2) cfg0.N = m ((c : Thread nD τ).loc main_arg0) :=
  ((dats m 0 c).arrAt_in 0 rfl _).trans rfl

/-- The result array after the one write-back: the whole array overwritten by what the body left. -/
theorem final_out (c : Dev nD) : (dats m 0 c).arrAt (1 : Fin 2) cfg0.N = outAt m c := by
  have hN : cfg0.N = (t₀ : Fin cfg0.N).val + 1 := cfg0_N
  rw [hN, Dat.arrAt_succ, if_pos (flush0_1 t₀)]
  refine (Memref.write_access_unit_zero_univ (Elt F) main_v1 (funext fun a => Nat.zero_mul _) _ _ _).trans ?_
  dsimp only [dats]
  rfl

/-- info: 'Cert.KernelIdeal.Run.xstg_eq' depends on axioms: [propext, Classical.choice, Quot.sound] -/
#guard_msgs in #print axioms xstg_eq
/-- info: 'Cert.KernelIdeal.Run.final_in' depends on axioms: [propext, Classical.choice, Quot.sound] -/
#guard_msgs in #print axioms final_in
/-- info: 'Cert.KernelIdeal.Run.final_out' depends on axioms: [propext, Classical.choice, Quot.sound] -/
#guard_msgs in #print axioms final_out

end Cert.KernelIdeal.Run

end
-- ==== Proof.KernelIdeal.Claims.lean ====
/-
  The run of @main on the four devices, read at the program's own arrays: every device's result array ends at the
  stored row of its own block's and its partner's block's column sums (the two payloads applied to the two devices'
  input arrays as launched), and every input array ends as launched.
-/
import proofs.«900958_g7700000000000959_dist_mean_ax0_xy_m2048_n1024_v7x_xy2x2_bf16_1_alg».proof.Proof.KernelIdeal.Launch
import proofs.«900958_g7700000000000959_dist_mean_ax0_xy_m2048_n1024_v7x_xy2x2_bf16_1_alg».proof.Proof.KernelIdeal.Final

noncomputable section

namespace Cert.KernelIdeal.Run

open Cert.KernelIdeal Cert.KernelIdeal.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The stored row, over the input arrays as launched: the staged blocks are the whole input arrays. -/
theorem outAt_eq (c : Dev nD) :
    outAt m c = k0_pay1 (k0_pay2 (m ((c.tc : Thread nD τ).loc main_arg0))) (k0_pay2 (m (((peer c).tc : Thread nD τ).loc main_arg0))) := by
  unfold outAt colv
  rw [xstg_eq m c, xstg_eq m (peer c)]

/-- Every weakly fair execution of @main terminates with each device's result array at the stored row of its own and
    its partner's column sums, and its input array unchanged. -/
theorem run_value : θ_run defs (onTc (τ := τ) (main (F := F))) ⟨m, fun _ => 0, ρ⟩ (fun r => ∀ c : Dev nD,
    r.2.mem ((c.tc : Thread nD τ).loc main_v1) = k0_pay1 (k0_pay2 (m ((c.tc : Thread nD τ).loc main_arg0))) (k0_pay2 (m (((peer c).tc : Thread nD τ).loc main_arg0)))
    ∧ r.2.mem ((c.tc : Thread nD τ).loc main_arg0) = m ((c.tc : Thread nD τ).loc main_arg0)) :=
  (θ_run defs _ _).mono
    (fun _ h c => ⟨((h c 1).trans (final_out m c)).trans (outAt_eq m c), (h c 0).trans (final_in m c)⟩)
    (run_main m ρ)

/-- @main runs to the end, faults nowhere and leaves every device's input array unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

/-- info: 'Cert.KernelIdeal.Run.run_value' depends on axioms: [propext, Classical.choice, Quot.sound] -/
#guard_msgs in #print axioms run_value
/-- info: 'Cert.KernelIdeal.Run.frame' depends on axioms: [propext, Classical.choice, Quot.sound] -/
#guard_msgs in #print axioms frame

end Cert.KernelIdeal.Run

end
-- ==== Proof.Kernel.Protocol.lean ====
/-
  Four devices on a 2 × 2 mesh; each holds one block of the input. A device and its partner (same column, other row)
  shake hands on the barrier semaphore — each signals the other's once and waits for one unit of its own —, each then
  writes the column sums of its block into slot 0 of its two-slot scratch buffer, copies that slot into slot 1 of its
  partner's scratch buffer, waits for its own copy to have left (send cell) and for its partner's to have landed
  (receive cell), and stores (slot 0 + slot 1) · 2⁻¹².

  Per cell, one round (round 0) with one duty:
  * the barrier cell of device c: one unit, paid by its partner's signal; with it come the partner's slot 1 (at any
    contents) and the fact that the partner's receive cell is at round 0 — what c's copy into that slot needs;
  * the send cell of c: the copy's credit, paid by c's own copy once slot 0 has been read; slot 0 comes back, still
    holding c's column sums;
  * the receive cell of c: the copy's credit, paid by the partner's copy once it has landed; slot 1 comes with it,
    holding the partner's column sums.
  A device owes, at launch, its partner's barrier cell one unit and its partner's receive cell the copy's credit.
  Levels: barrier cells at 1, receive cells at 2, everything else at 0; a device waits on its barrier cell owing only a
  receive credit, and on its send and receive cells owing nothing.
-/
import proofs.«900958_g7700000000000959_dist_mean_ax0_xy_m2048_n1024_v7x_xy2x2_bf16_1_alg».proof.Proof.Gen.Kernel
import proofs.«900958_g7700000000000959_dist_mean_ax0_xy_m2048_n1024_v7x_xy2x2_bf16_1_alg».proof.Proof.Gen.Kernel.Skeleton
import proofs.«900958_g7700000000000959_dist_mean_ax0_xy_m2048_n1024_v7x_xy2x2_bf16_1_alg».proof.Proof.Gen.Kernel.Launch
import proofs.«900958_g7700000000000959_dist_mean_ax0_xy_m2048_n1024_v7x_xy2x2_bf16_1_alg».proof.Proof.Gen.Kernel.Points
import proofs.«900958_g7700000000000959_dist_mean_ax0_xy_m2048_n1024_v7x_xy2x2_bf16_1_alg».proof.Proof.Peer
import Idealize.ShloMosaic.Lib.Pipeline.Launch
import Idealize.ShloMosaic.Lib.Pipeline.Kit
import Idealize.ShloMosaic.Lib.Tactic

noncomputable section

namespace Cert.Kernel.Run

open Cert.Kernel Cert.Kernel.Gen
open Cert.Proof.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- Both of the kernel's device-id chains name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-! ## The memrefs, the two slots, the cells -/

abbrev xM : Memref sig .tc .vmem S2048x1024 .f32 := Memref.whole cc0_stg0_0
abbrev oM : Memref sig .tc .vmem S1x1024 .f32 := Memref.whole cc0_stg1_0
abbrev scrM : Memref sig .tc .vmem S2x1x1024 .f32 := Memref.whole cc0_scratch0

/-- Row 0 and row 1 of the scratch buffer, as rectangles of it. -/
abbrev R0 : Rect S2x1x1024 := Rect.unit (s := S2x1x1024) ![0, 0, 0] S1x1x1024.size inb_S2x1x1024_S1x1x1024_0_0_0
abbrev R1 : Rect S2x1x1024 := Rect.unit (s := S2x1x1024) ![1, 0, 0] S1x1x1024.size inb_S2x1x1024_S1x1x1024_1_0_0

/-- The two rows as the copy sees them: sliced out and squeezed to 1 × 1024. -/
abbrev slot0 : Memref sig .tc .vmem S1x1024 .f32 := (scrM.slice R0 (fun _ => rfl)).squeeze S1x1024 squeezes_S1x1x1024_S1x1024
abbrev slot1 : Memref sig .tc .vmem S1x1024 .f32 := (scrM.slice R1 (fun _ => rfl)).squeeze S1x1024 squeezes_S1x1x1024_S1x1024

/-- The two rows as a load or store through the whole buffer sees them. -/
abbrev A0 : View sig .tc .vmem S1x1x1024 .f32 := scrM.access R0
abbrev A1 : View sig .tc .vmem S1x1x1024 .f32 := scrM.access R1

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The copy's credit. -/
abbrev N : ℕ := (slot1 : Memref sig .tc .vmem S1x1024 .f32).view.dmaCredit
theorem N_pos : 0 < N := View.dmaCredit_pos _ (by decide)

/-! ## Contents -/

/-- Device c's block of the input, as its staging buffer holds it. -/
def xstg (c : Dev nD) : (cc0_stg0_0 : Ref sig .tc).ty.Contents (Elt F) :=
  (win0_0.blk (0 : Fin 1)).view.read (Elt F) (m ((c : Thread nD τ).loc main_arg0))

/-- The column sums of device c's block. -/
def colv (c : Dev nD) : Vec F S1x1x1024 .f32 := k0_pay2 (xstg m c)

/-- The kernel's result on device c. -/
def outAt (c : Dev nD) : (cc0_stg1_0 : Ref sig .tc).ty.Contents (Elt F) := k0_pay1 (colv m c) (colv m (peer c))

abbrev ScrBuf (c : Dev nD) : Type := Buf (Elt F) ((scrM : Memref sig .tc .vmem S2x1x1024 .f32).view.loc (c : Thread nD τ))

def scrPts (c : Dev nD) (f : ScrBuf (F := F) c) : sProp 𝕄 :=
  (scrM : Memref sig .tc .vmem S2x1x1024 .f32).view.loc (c : Thread nD τ) ↦[(scrM : Memref sig .tc .vmem S2x1x1024 .f32).view.set]{fullShare} f
def slot0Pts (c : Dev nD) (f : ScrBuf (F := F) c) : sProp 𝕄 :=
  (slot0 : Memref sig .tc .vmem S1x1024 .f32).view.loc (c : Thread nD τ) ↦[(slot0 : Memref sig .tc .vmem S1x1024 .f32).view.set]{fullShare} f
def slot1Pts (c : Dev nD) (f : ScrBuf (F := F) c) : sProp 𝕄 :=
  (slot1 : Memref sig .tc .vmem S1x1024 .f32).view.loc (c : Thread nD τ) ↦[(slot1 : Memref sig .tc .vmem S1x1024 .f32).view.set]{fullShare} f

/-! ## The schedule -/

/-- With the partner's signal come the partner's slot 1 and that its receive cell is at round 0. -/
def barPay (c : Dev nD) : sProp 𝕄 := iprop((∃ f, slot1Pts (peer c) f) ∗ reached ER (recvCell (peer c)) 0)
/-- With the landing comes slot 1, read back through row 1 as the partner's column sums. -/
def recvPay (c : Dev nD) : sProp 𝕄 := iprop(∃ g, slot1Pts c g ∗ ⌜A1.read (Elt F) g = colv m (peer c)⌝)
/-- With the departure slot 0 comes back, still reading as the device's own column sums. -/
def sendPay (c : Dev nD) : sProp 𝕄 := iprop(∃ f, slot0Pts c f ∗ ⌜A0.read (Elt F) f = colv m c⌝)

abbrev IsMine (g : GSem nD τ sig) : Prop := g.1.2 = .tc ∧ (g.2 = .reg barS ∨ g.2 = .dma sendS.sem ∨ g.2 = .dma recvS.sem)

def sched : Rounds.Schedule (GSem nD τ sig) Unit 𝕄 where
  duties g r := if r = 0 ∧ IsMine g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay slot0Pts slot1Pts
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, rfl, .inl rfl⟩
theorem duties_send : (sched (F := F) m).duties (sendCell c) 0 = {()} := by dsimp only [sched]; exact if_pos ⟨rfl, rfl, .inr (.inl rfl)⟩
theorem duties_recv : (sched (F := F) m).duties (recvCell c) 0 = {()} := by dsimp only [sched]; exact if_pos ⟨rfl, rfl, .inr (.inr rfl)⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device c owes its partner's receive cell the copy's credit and its partner's barrier cell one unit; the signal
    comes first and peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above every barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Run

end
-- ==== Proof.Kernel.Body.lean ====
/-
  One device's body, run once at a symbolic device c with partner p = peer c, from what the launch deals it to what
  the pipeline takes back: the result block holding (column sums of c's block + column sums of p's block) · 2⁻¹².
-/
import proofs.«900958_g7700000000000959_dist_mean_ax0_xy_m2048_n1024_v7x_xy2x2_bf16_1_alg».proof.Proof.Kernel.Protocol

noncomputable section

namespace Cert.Kernel.Run

open Cert.Kernel Cert.Kernel.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two slots as parts of the scratch buffer -/

omit [FloatOps F] in
theorem slot0_set : (slot0 : Memref sig .tc .vmem S1x1024 .f32).view.set = (R0 : Rect S2x1x1024).set := by
  show ((View.whole cc0_scratch0).slice R0 |>.reshape S1x1024 _).set = _
  rw [View.set_reshape, View.set_slice_whole]
omit [FloatOps F] in
theorem slot1_set : (slot1 : Memref sig .tc .vmem S1x1024 .f32).view.set = (R1 : Rect S2x1x1024).set := by
  show ((View.whole cc0_scratch0).slice R1 |>.reshape S1x1024 _).set = _
  rw [View.set_reshape, View.set_slice_whole]
omit [FloatOps F] in
theorem A0_set : (A0 : View sig .tc .vmem S1x1x1024 .f32).set = (R0 : Rect S2x1x1024).set := View.set_slice_whole _ _
omit [FloatOps F] in
theorem A1_set : (A1 : View sig .tc .vmem S1x1x1024 .f32).set = (R1 : Rect S2x1x1024).set := View.set_slice_whole _ _

omit [FloatOps F] in
theorem slots_disjoint : Disjoint (slot0 : Memref sig .tc .vmem S1x1024 .f32).view.set (slot1 : Memref sig .tc .vmem S1x1024 .f32).view.set := by
  rw [slot0_set, slot1_set]
  exact Rect.unit_disjoint (0 : Fin 3) (.inl (by decide))

omit [FloatOps F] in
theorem slots_union : (slot0 : Memref sig .tc .vmem S1x1024 .f32).view.set ∪ (slot1 : Memref sig .tc .vmem S1x1024 .f32).view.set
    = (scrM : Memref sig .tc .vmem S2x1x1024 .f32).view.set := by
  rw [slot0_set, slot1_set]
  show _ = (View.whole cc0_scratch0 : View sig .tc _ _ _).set
  rw [View.set_whole]
  ext i
  simp only [Finset.mem_union, Rect.mem_set_unit, Finset.mem_univ, iff_true]
  have h0 := (i 0).isLt; have h1 := (i 1).isLt; have h2 := (i 2).isLt
  by_cases h : (i 0).val = 0
  · left; intro a; fin_cases a
    · exact ⟨Nat.zero_le _, by show (i 0).val < 0 + 1; omega⟩
    · exact ⟨Nat.zero_le _, by show (i 1).val < 0 + 1; exact h1⟩
    · exact ⟨Nat.zero_le _, by show (i 2).val < 0 + 1024; exact h2⟩
  · right; intro a; fin_cases a
    · refine ⟨by show 1 ≤ (i 0).val; omega, by show (i 0).val < 1 + 1; exact h0⟩
    · exact ⟨Nat.zero_le _, by show (i 1).val < 0 + 1; exact h1⟩
    · exact ⟨Nat.zero_le _, by show (i 2).val < 0 + 1024; exact h2⟩

/-- The scratch buffer is its two slots. -/
theorem scr_split (c : Dev nD) (f : ScrBuf (F := F) c) : scrPts c f ⊣⊢ iprop(slot0Pts c f ∗ slot1Pts c f) := by
  unfold scrPts slot0Pts slot1Pts
  rw [← slots_union]
  exact pointsTo_union slots_disjoint

/-- Two slots at different contents are the scratch buffer at some contents. -/
theorem scr_join (c : Dev nD) (f g : ScrBuf (F := F) c) : iprop(slot0Pts c f ∗ slot1Pts c g) ⊢ iprop(∃ h, scrPts c h) := by
  unfold scrPts slot0Pts slot1Pts
  rw [← slots_union]
  iintro H
  iexists _
  iapply (pointsTo_join slots_disjoint) $$ H

/-! ## Reading the slots -/

omit [FloatOps F] in
/-- What lands in row 1 through the squeezed view, read back through the row, is what the squeezed view of row 0
    read at the source: the two squeezes cancel. -/
theorem landing_read (fs fd : (cc0_scratch0 : Ref sig .tc).ty.Contents (Elt F)) :
    (A1 : View sig .tc .vmem S1x1x1024 .f32).read (Elt F)
      ((slot1 : Memref sig .tc .vmem S1x1024 .f32).view.write (Elt F) fd ((slot0 : Memref sig .tc .vmem S1x1024 .f32).view.read (Elt F) fs) Finset.univ)
      = (A0 : View sig .tc .vmem S1x1x1024 .f32).read (Elt F) fs := by
  funext y
  have hn : S1x1024.numel = S1x1x1024.numel := by decide
  obtain ⟨x, rfl⟩ : ∃ x, (Shape.reshapeEquiv hn) x = y := ⟨(Shape.reshapeEquiv hn).symm y, Equiv.apply_symm_apply _ _⟩
  have e1 : (A1 : View sig .tc .vmem S1x1x1024 .f32).emb (Shape.reshapeEquiv hn x) = (slot1 : Memref sig .tc .vmem S1x1024 .f32).view.emb x := rfl
  have e0 : (A0 : View sig .tc .vmem S1x1x1024 .f32).emb (Shape.reshapeEquiv hn x) = (slot0 : Memref sig .tc .vmem S1x1024 .f32).view.emb x := rfl
  rw [View.read_apply, e1, View.write_emb_of_mem _ _ (Finset.mem_univ x), View.read_apply, View.read_apply, e0]
  rfl

/-! ## The proof data -/

omit [FloatOps F] in
theorem cfg0_N : cfg0.N = 1 := by decide
def t₀ : Fin cfg0.N := ⟨0, by rw [cfg0_N]; decide⟩
omit [FloatOps F] in
theorem fin_N (t : Fin cfg0.N) : t = t₀ := by
  obtain ⟨t, ht⟩ := t; have := cfg0_N; exact Fin.ext (by simp only [t₀]; omega)

/-- The cells' invariants device c's body opens: its own three, its partner's barrier cell (its signal) and its
    partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells;
    round 0 reached on the cells it pays and on its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, the credit for its barrier's unit and for its receive cell,
    and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the scratch buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rX : Rect S2048x1024 := Rect.unit (s := S2048x1024) ![0, 0] S2048x1024.size inb_S2048x1024_S2048x1024_0_0
abbrev rO : Rect S1x1024 := Rect.unit (s := S1x1024) ![0, 0] S1x1024.size inb_S1x1024_S1x1024_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S2048x1024 .f32).view.readAt (Elt F) rX.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
/-- The copy of slot 0 into the partner's slot 1, at the protocol's cells: the departure hands slot 0 back still reading
    as c's column sums; the landing hands the partner its slot 1 reading, through row 1, as c's column sums (the two
    squeezes cancel). The copy is addressed to n, which is the partner (substituted, not rewritten). -/
theorem wp_send_slot (c n : Dev nD) (hn : n = peer c)
    {hsc : (slot1 : Memref sig (Dev.tc n : Thread nD τ).2.kind .vmem S1x1024 .f32).view.ref.isScScratch = false}
    {hsrc : (slot0 : Memref sig .tc .vmem S1x1024 .f32).view.WordExact} {hdst : (slot1 : Memref sig .tc .vmem S1x1024 .f32).view.WordExact}
    {hsem : DmaTarget.Typed .vmem (.dma recvS.sem) (.remote (Dev.tc n : Thread nD τ) (slot1 : Memref sig .tc .vmem S1x1024 .f32) (.dma sendS.sem) hsc)}
    {α : Type} {Q : α → sProp 𝕄} {k : PUnit → Prog (TpuEff nD τ sig (Elt F) Λ₀ .tc) α}
    (fs : ScrBuf (F := F) c) (hfs : A0.read (Elt F) fs = colv m c) (fn : ScrBuf (F := F) (peer c)) (W : Waits sig Unit) :
    iprop(cellInv ER (sched m) (K (c, 1)) (sendCell c) ∗ cellInv ER (sched m) (K (peer c, 2)) (recvCell (peer c))
        ∗ slot0Pts c fs ∗ slot1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m) (c : Thread nD τ) none (κ₁ := K (c, 1)) (κ₂ := K (peer c, 2))
    (c' := (peer c : Thread nD τ)) (src := (slot0 : Memref sig .tc .vmem S1x1024 .f32)) (dst := (slot1 : Memref sig .tc .vmem S1x1024 .f32)) (q := fullShare)
    (r₁ := 0) (r₂ := 0) (d₁ := ()) (d₂ := ()) (fs := fs) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0Pts
      iintro H; iexists fs
      isplitl; · iexact H
      ipureintro; exact hfs)
    (by
      rw [payload_recv]; unfold recvPay slot1Pts
      iintro H; iexists _
      isplitl; · iexact H
      ipureintro; rw [landing_read, hfs, peer_peer])

omit [FloatOps F] in
theorem A0_sub : (A0 : View sig .tc .vmem S1x1x1024 .f32).set ⊆ (slot0 : Memref sig .tc .vmem S1x1024 .f32).view.set := (slot0_set.trans A0_set.symm).ge
omit [FloatOps F] in
theorem A1_sub : (A1 : View sig .tc .vmem S1x1x1024 .f32).set ⊆ (slot1 : Memref sig .tc .vmem S1x1024 .f32).view.set := (slot1_set.trans A1_set.symm).ge

set_option maxHeartbeats 1600000 in
/-- The body at device c, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hs := (scr_split c f0).1 $$ Hscr
  icases Hs with ⟨H0, H1⟩
  simp only [dev1_eq c, dev2_eq c]
  -- the signal to the partner's barrier cell: with it go this device's slot 1 and its receive cell's round
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP H1]
  · isplitr; · iexact HIbarP
    isplitl [HO]; · iexact HO
    isplitl [HtBP]; · iexact HtBP
    isplitl [H1]
    · rw [payload_bar]; unfold barPay; rw [peer_peer]
      isplitl [H1]; · iexists f0; iexact H1
      iexact HrV
    · iexact HrBP
  iintro HO
  -- the wait for one unit on its own barrier cell, owing only the partner's receive credit: the partner's slot 1 comes
  unfold O₁
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, H1P⟩, #HrVP'⟩
  -- the block is loaded, row 0 is loaded (not used) and overwritten with the block's column sums
  iapply (wp_load 𝒱₀ (c : Thread nD τ) none Set.univ (m := xM) (Finset.subset_univ _)) $$ Hx; iintro Hx
  rw [read_x]
  unfold slot0Pts
  iapply (wp_load_rect 𝒱₀ (c : Thread nD τ) none Set.univ (m := scrM) (r := R0) A0_sub) $$ H0; iintro H0
  iapply (wp_store 𝒱₀ (c : Thread nD τ) none Set.univ (m := scrM) (r := R0) (Mk := Finset.univ) (by rw [View.setOn_univ]; exact A0_sub)) $$ H0; iintro H0
  -- the copy into the partner's slot 1
  iapply (wp_send_slot m K c _ (dev2_eq c) ((A0 : View sig .tc .vmem S1x1x1024 .f32).write (Elt F) f0 (colv m c) Finset.univ)
      (View.read_write_univ _ _) fn (insert (SemLoc.reg barS, ()) W)) $$ [H0 H1P HO HtS HtVP]
  · isplitr; · iexact HIsnd
    isplitr; · iexact HIrcvP
    isplitl [H0]; · unfold slot0Pts colv; iexact H0
    isplitl [H1P]; · iexact H1P
    isplitl [HO]; · iexact HO
    isplitl [HtS]; · iexact HtS
    isplitr; · iexact HrS
    isplitl [HtVP]; · iexact HtVP
    iexact HrVP
  iintro ⟨HcS, HO⟩
  -- the wait on its send cell: slot 0 back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp0 := (Entails.of_eq (rest_send m c)) $$ Hpay
  unfold sendPay
  icases Hp0 with ⟨%fs', H0, %hfs'⟩
  -- the wait on its receive cell: slot 1 holding the partner's column sums
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp1 := (Entails.of_eq (rest_recv m c)) $$ Hpay
  unfold recvPay
  icases Hp1 with ⟨%g, H1, %hg⟩
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the two rows are loaded, the result block is loaded (not used) and stored
  unfold slot0Pts slot1Pts
  iapply (wp_load_rect 𝒱₀ (c : Thread nD τ) none Set.univ (m := scrM) (r := R0) A0_sub) $$ H0; iintro H0
  iapply (wp_load_rect 𝒱₀ (c : Thread nD τ) none Set.univ (m := scrM) (r := R1) A1_sub) $$ H1; iintro H1
  rw [hfs', hg]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [H0 H1 HzS HzV]
  · isplitl [H0 H1]
    · iapply (scr_join c fs' g)
      unfold slot0Pts slot1Pts
      isplitl [H0] <;> iassumption
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.Kernel.Run

end
-- ==== Proof.Kernel.Launch.lean ====
/-
  The launch: every device's cells allocated under one update, the duty tokens dealt to the devices that pay them,
  the launch credit read off what the devices owe, and the run of @main on the four devices with each device's
  result array named.
-/
import proofs.«900958_g7700000000000959_dist_mean_ax0_xy_m2048_n1024_v7x_xy2x2_bf16_1_alg».proof.Proof.Kernel.Body

noncomputable section

namespace Cert.Kernel.Run

open Cert.Kernel Cert.Kernel.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ownSemFacts : Pipeline.OwnSemFacts cfg0.spec osem := by decide

theorem share_eq (c : Dev nD) (w : Fin cfg0.W) : (dats m 0 c).share w = fullShare := by unfold Dat.share; split <;> rfl

omit [FloatOps F] in
theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted. -/
abbrev tokOf (ck : Dev nD × Fin 3) : GSem nD τ sig × ℕ × Unit := (kcell ck, 0, ())
omit [FloatOps F] in
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a device's barrier token and receive token go to its partner, its send token
    stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — each pair of devices shaking hands on the barrier semaphore, then exchanging column sums —
    terminates, and every final state has each device's arrays at the named contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Run.run_main' depends on axioms: [propext, Classical.choice, Quot.sound] -/
#guard_msgs in #print axioms run_main

end Cert.Kernel.Run

end
-- ==== Proof.Kernel.Final.lean ====
/-
  What the arrays hold when the one point of the pipeline is over: the input array as launched (its one window is the
  whole array, never written back), and the result array at what the body stored (its one window is the whole array,
  written back once, unmasked).
-/
import proofs.«900958_g7700000000000959_dist_mean_ax0_xy_m2048_n1024_v7x_xy2x2_bf16_1_alg».proof.Proof.Kernel.Body
import Idealize.ShloMosaic.Lib.Pipeline.Value

noncomputable section

namespace Cert.Kernel.Run

open Cert.Kernel Cert.Kernel.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input window's block at the one point is the whole input array: reading it is the identity. -/
theorem xstg_eq (c : Dev nD) : xstg m c = m ((c : Thread nD τ).loc main_arg0) := by
  unfold xstg
  exact Memref.read_access_unit_zero (Elt F) main_arg0 (funext fun a => Nat.zero_mul _) _ _

/-- The input array is never written back: it ends as launched. -/
theorem final_in (c : Dev nD) : (dats m 0 c).arrAt (0 : Fin 2) cfg0.N = m ((c : Thread nD τ).loc main_arg0) :=
  ((dats m 0 c).arrAt_in 0 rfl _).trans rfl

/-- The result array after the one write-back: the whole array overwritten by what the body left. -/
theorem final_out (c : Dev nD) : (dats m 0 c).arrAt (1 : Fin 2) cfg0.N = outAt m c := by
  have hN : cfg0.N = (t₀ : Fin cfg0.N).val + 1 := cfg0_N
  rw [hN, Dat.arrAt_succ, if_pos (flush0_1 t₀)]
  refine (Memref.write_access_unit_zero_univ (Elt F) main_v1 (funext fun a => Nat.zero_mul _) _ _ _).trans ?_
  dsimp only [dats]
  rfl

/-- info: 'Cert.Kernel.Run.xstg_eq' depends on axioms: [propext, Classical.choice, Quot.sound] -/
#guard_msgs in #print axioms xstg_eq
/-- info: 'Cert.Kernel.Run.final_in' depends on axioms: [propext, Classical.choice, Quot.sound] -/
#guard_msgs in #print axioms final_in
/-- info: 'Cert.Kernel.Run.final_out' depends on axioms: [propext, Classical.choice, Quot.sound] -/
#guard_msgs in #print axioms final_out

end Cert.Kernel.Run

end
-- ==== Proof.Kernel.Claims.lean ====
/-
  The run of @main on the four devices, read at the program's own arrays: every device's result array ends at the
  stored row of its own block's and its partner's block's column sums (the two payloads applied to the two devices'
  input arrays as launched), and every input array ends as launched.
-/
import proofs.«900958_g7700000000000959_dist_mean_ax0_xy_m2048_n1024_v7x_xy2x2_bf16_1_alg».proof.Proof.Kernel.Launch
import proofs.«900958_g7700000000000959_dist_mean_ax0_xy_m2048_n1024_v7x_xy2x2_bf16_1_alg».proof.Proof.Kernel.Final

noncomputable section

namespace Cert.Kernel.Run

open Cert.Kernel Cert.Kernel.Gen
open Cert.Proof.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The stored row, over the input arrays as launched: the staged blocks are the whole input arrays. -/
theorem outAt_eq (c : Dev nD) :
    outAt m c = k0_pay1 (k0_pay2 (m ((c.tc : Thread nD τ).loc main_arg0))) (k0_pay2 (m (((peer c).tc : Thread nD τ).loc main_arg0))) := by
  unfold outAt colv
  rw [xstg_eq m c, xstg_eq m (peer c)]

/-- Every weakly fair execution of @main terminates with each device's result array at the stored row of its own and
    its partner's column sums, and its input array unchanged. -/
theorem run_value : θ_run defs (onTc (τ := τ) (main (F := F))) ⟨m, fun _ => 0, ρ⟩ (fun r => ∀ c : Dev nD,
    r.2.mem ((c.tc : Thread nD τ).loc main_v1) = k0_pay1 (k0_pay2 (m ((c.tc : Thread nD τ).loc main_arg0))) (k0_pay2 (m (((peer c).tc : Thread nD τ).loc main_arg0)))
    ∧ r.2.mem ((c.tc : Thread nD τ).loc main_arg0) = m ((c.tc : Thread nD τ).loc main_arg0)) :=
  (θ_run defs _ _).mono
    (fun _ h c => ⟨((h c 1).trans (final_out m c)).trans (outAt_eq m c), (h c 0).trans (final_in m c)⟩)
    (run_main m ρ)

/-- @main runs to the end, faults nowhere and leaves every device's input array unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

/-- info: 'Cert.Kernel.Run.run_value' depends on axioms: [propext, Classical.choice, Quot.sound] -/
#guard_msgs in #print axioms run_value
/-- info: 'Cert.Kernel.Run.frame' depends on axioms: [propext, Classical.choice, Quot.sound] -/
#guard_msgs in #print axioms frame

end Cert.Kernel.Run

end
-- ==== Proof.lean ====
/- The proof of `Cert.Claim`. Four devices on a 2 × 2 mesh each hold one 2048 × 1024 block of a 4096 × 2048 array; a device
   sums the columns of its block, exchanges that row of sums with its partner (same column of the mesh, other row) under a
   handshake on the barrier semaphore and two DMA semaphores, and stores (own sums + partner's sums) · 2⁻¹². The reference
   sums every column of the whole array over all 4096 rows and divides by 4096. At the ideal instance the column's sum splits
   into the two halves of the rows (in either order: addition of extended reals is commutative and associative) and division
   by the real 4096 is multiplication by 2⁻¹² on every extended real, so each device's result is its block of the
   reference's; the frames are the same runs with the value dropped, and the idealization rewrote nothing. -/
import proofs.«900958_g7700000000000959_dist_mean_ax0_xy_m2048_n1024_v7x_xy2x2_bf16_1_alg».proof.Defs
import proofs.«900958_g7700000000000959_dist_mean_ax0_xy_m2048_n1024_v7x_xy2x2_bf16_1_alg».proof.Proof.Gen.Kernel
import proofs.«900958_g7700000000000959_dist_mean_ax0_xy_m2048_n1024_v7x_xy2x2_bf16_1_alg».proof.Proof.Gen.Kernel.Skeleton
import proofs.«900958_g7700000000000959_dist_mean_ax0_xy_m2048_n1024_v7x_xy2x2_bf16_1_alg».proof.Proof.Gen.Kernel.Launch
import proofs.«900958_g7700000000000959_dist_mean_ax0_xy_m2048_n1024_v7x_xy2x2_bf16_1_alg».proof.Proof.Gen.Kernel.Points
import proofs.«900958_g7700000000000959_dist_mean_ax0_xy_m2048_n1024_v7x_xy2x2_bf16_1_alg».proof.Proof.Gen.Kernel.Frame
import proofs.«900958_g7700000000000959_dist_mean_ax0_xy_m2048_n1024_v7x_xy2x2_bf16_1_alg».proof.Proof.Gen.KernelIdeal
import proofs.«900958_g7700000000000959_dist_mean_ax0_xy_m2048_n1024_v7x_xy2x2_bf16_1_alg».proof.Proof.Gen.KernelIdeal.Skeleton
import proofs.«900958_g7700000000000959_dist_mean_ax0_xy_m2048_n1024_v7x_xy2x2_bf16_1_alg».proof.Proof.Gen.KernelIdeal.Launch
import proofs.«900958_g7700000000000959_dist_mean_ax0_xy_m2048_n1024_v7x_xy2x2_bf16_1_alg».proof.Proof.Gen.KernelIdeal.Points
import proofs.«900958_g7700000000000959_dist_mean_ax0_xy_m2048_n1024_v7x_xy2x2_bf16_1_alg».proof.Proof.Gen.KernelIdeal.Frame
import proofs.«900958_g7700000000000959_dist_mean_ax0_xy_m2048_n1024_v7x_xy2x2_bf16_1_alg».proof.Proof.Gen.ReferenceIdeal
import proofs.«900958_g7700000000000959_dist_mean_ax0_xy_m2048_n1024_v7x_xy2x2_bf16_1_alg».proof.Proof.Gen.Pre_finite_inputs_Kernel
import proofs.«900958_g7700000000000959_dist_mean_ax0_xy_m2048_n1024_v7x_xy2x2_bf16_1_alg».proof.Proof.Gen.Pre_finite_inputs_ReferenceIdeal
import proofs.«900958_g7700000000000959_dist_mean_ax0_xy_m2048_n1024_v7x_xy2x2_bf16_1_alg».proof.Proof.RefSide
import proofs.«900958_g7700000000000959_dist_mean_ax0_xy_m2048_n1024_v7x_xy2x2_bf16_1_alg».proof.Proof.Join
import proofs.«900958_g7700000000000959_dist_mean_ax0_xy_m2048_n1024_v7x_xy2x2_bf16_1_alg».proof.Proof.KernelIdeal.Claims
import proofs.«900958_g7700000000000959_dist_mean_ax0_xy_m2048_n1024_v7x_xy2x2_bf16_1_alg».proof.Proof.Kernel.Claims
import Idealize.ShloMosaic.Adequacy
import Idealize.ShloMosaic.Init

noncomputable section

namespace Cert.Proof

open Idealize.ShloMosaic Idealize.SL.Sem Cert.Kernel
open Cert.Proof.Mesh

/-- The kernel as printed runs to the end, faults nowhere and leaves its input arrays unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- At the ideal instance each device's result array ends holding its block of the reference's result. -/
theorem algebraic : Cert.algebraic_KernelIdeal_ReferenceIdeal := fun m ρ m' ρ' _ hagree =>
  ⟨RefSide.refVal (m' (((0 : Dev Cert.ReferenceIdeal.nD).tc : Thread Cert.ReferenceIdeal.nD Cert.ReferenceIdeal.τ).loc Cert.ReferenceIdeal.main_arg0)),
    (θ_run Cert.KernelIdeal.defs _ _).mono
      (fun r h c => ⟨by rw [(h c).1, hagree c, hagree (peer c)]; exact (Join.join _ c).symm, (h c).2⟩)
      (Cert.KernelIdeal.Run.run_value (F := Ideal) m ρ),
    RefSide.ref_run m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, RefSide.frame_ri, trivial, algebraic⟩

end Cert.Proof

end
